-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S1600000 .f32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 68
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x64, .f32⟩
  | .hbm, ⟨67, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One layer of a Chebyshev graph convolution of order two, after its sparse part: from the node features `x`, the
  propagated features `t` (the normalised adjacency applied to `x`), two 64 × 64 weight matrices and a bias row,

      out[r, c] = (Σₖ x[r, k] · w0[k, c]  +  Σₖ t[r, k] · w1[k, c])  +  b[c]

  over the extended reals, in exactly this grouping: the two products are added first and the bias last. Both programs
  compute it with this grouping, so no law of the extended reals beyond the definition is needed to join them.
-/
import Idealize.ShloMosaic.PureOps.Ideal
import Idealize.ShloMosaic.Lib.ValueIdx

noncomputable section

namespace Cert.Combine

open Idealize.ShloMosaic Idealize.ShloMosaic.ValueIdx

/-- The dense combine of the layer at one entry `(r, c)` of the output: row `r` of `x` against column `c` of `w0`, plus
    row `r` of `t` against column `c` of `w1`, plus entry `c` of the bias. -/
def combine (x t : FVec Ideal ⟨2, ![100000, 64]⟩ .f32) (w0 w1 : FVec Ideal ⟨2, ![64, 64]⟩ .f32)
    (b : FVec Ideal ⟨1, ![64]⟩ .f32) : FVec Ideal ⟨2, ![100000, 64]⟩ .f32 :=
  fun i => (∑ k : Fin 64, x (ix2 (i 0) k) * w0 (ix2 k (i 1)) + ∑ k : Fin 64, t (ix2 (i 0) k) * w1 (ix2 k (i 1)))
    + b (ix1 (i 1))

/-- The same at explicit coordinates. -/
theorem combine_apply (x t : FVec Ideal ⟨2, ![100000, 64]⟩ .f32) (w0 w1 : FVec Ideal ⟨2, ![64, 64]⟩ .f32)
    (b : FVec Ideal ⟨1, ![64]⟩ .f32) (r : Fin 100000) (c : Fin 64) :
    combine x t w0 w1 b (ix2 r c)
      = (∑ k : Fin 64, x (ix2 r k) * w0 (ix2 k c) + ∑ k : Fin 64, t (ix2 r k) * w1 (ix2 k c)) + b (ix1 c) := rfl

end Cert.Combine

end
-- ==== Proof.RefCombine.lean ====
/-
  The reference, read at an output entry. Its last five operations are two matrix products on the host, their sum, the
  bias row broadcast over the rows, and the final sum. At the extended reals a host product with one contracted axis is
  the plain sum over that axis, and the two broadcasts of the bias read entry `c` of it at every row. So the reference's
  result is the dense combine of the node features, the reference's own propagated features, the two weight matrices
  and the bias — the propagated features kept as the one function of the arguments the sparse part computes.
-/
import proofs.«174732_j84954453114993_1_alg».proof.Proof.Gen.ReferenceIdeal.Read
import proofs.«174732_j84954453114993_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Combine

/-- The left factor of either product at output entry `i` and contraction index `k` is entry `(row of i, k)`. -/
theorem lidx44_eq (i : S100000x64.Idx) (k : Fin 64) : lidx_main_v44 i k = ix2 (i 0) k :=
  funext fun a => by match a with | ⟨0, _⟩ => rfl | ⟨1, _⟩ => rfl
/-- The right factor is entry `(k, column of i)`. -/
theorem ridx44_eq (i : S100000x64.Idx) (k : Fin 64) : ridx_main_v44 i k = ix2 k (i 1) :=
  funext fun a => by match a with | ⟨0, _⟩ => rfl | ⟨1, _⟩ => rfl
theorem lidx45_eq (i : S100000x64.Idx) (k : Fin 64) : lidx_main_v45 i k = ix2 (i 0) k :=
  funext fun a => by match a with | ⟨0, _⟩ => rfl | ⟨1, _⟩ => rfl
theorem ridx45_eq (i : S100000x64.Idx) (k : Fin 64) : ridx_main_v45 i k = ix2 k (i 1) :=
  funext fun a => by match a with | ⟨0, _⟩ => rfl | ⟨1, _⟩ => rfl
/-- The bias, broadcast first to one row and then over all rows, is read at the column of `i`. -/
theorem bidx_eq (i : S100000x64.Idx) : idx_main_v47 (idx_main_v48 i) = ix1 (i 1) :=
  funext fun a => by match a with | ⟨0, _⟩ => rfl

/-- The reference's result is the dense combine of its arguments and of its own propagated features. -/
theorem result_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S64x64, .f32⟩ : BufTy).Contents (Elt Ideal))
    (x5 : (⟨S64, .f32⟩ : BufTy).Contents (Elt Ideal)) :
    val_main_v49 (F := Ideal) x0 x1 x2 x3 x4 x5 = combine x0 (val_main_v43 (F := Ideal) x0 x1 x2) x3 x4 x5 := by
  funext i
  rw [val_main_v49_apply, val_main_v46_apply, val_main_v44_apply, val_main_v45_apply, val_main_v48_apply, val_main_v47_apply]
  simp only [lidx44_eq, ridx44_eq, lidx45_eq, ridx45_eq, bidx_eq]
  rfl

end Cert.ReferenceIdeal.RefValue

end
-- ==== Proof.BodyCombine.lean ====
/-
  The kernel body at one entry of its output block. The body loads a 5000-row block of the node features and of the
  propagated features, the two 64 × 64 weight matrices and the bias row, narrows the four matrices to bf16 (the identity
  on extended reals), multiplies block by matrix twice into a zero accumulator, adds the two products and then the bias
  row broadcast over the block's rows. At the extended reals a product into the zero accumulator is the plain sum over
  the contracted axis, so entry `(p, q)` of the stored block is

      (Σₖ xblk[p, k] · w0[k, q]  +  Σₖ tblk[p, k] · w1[k, q])  +  brow[0, q].
-/
import proofs.«174732_j84954453114993_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The product's operand indices: rows of the left factor, columns of the right, one contracted axis -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block times a matrix into the zero accumulator, at entry `(p, q)`: row `p` of the block against column `q` of the
    matrix, summed over the 64 contracted positions. -/
theorem matmul_zero_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-- The bias row broadcast over the block's rows, at entry `(p, q)`: the row's entry in column `q`. -/
theorem bias_row_apply (brow : FVec Ideal S1x64 .f32) (p : Fin 5000) (q : Fin 64) :
    broadcastTo S5000x64 brow broadcasts_S1x64_S5000x64 (ix2 p q) = brow (ix2 0 q) :=
  broadcastTo_apply brow broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- THE BODY AT AN ENTRY: what the body stores at entry `(p, q)` of its output block, from its five loaded values. -/
theorem stored_apply (xblk tblk : Vec Ideal S5000x64 .f32) (w0 w1 : Vec Ideal S64x64 .f32) (brow : Vec Ideal S1x64 .f32)
    (p : Fin 5000) (q : Fin 64) :
    k0_pay1 (F := Ideal) xblk tblk w0 w1 brow (ix2 p q)
      = (∑ k : Fin 64, xblk (ix2 p k) * w0 (ix2 k q) + ∑ k : Fin 64, tblk (ix2 p k) * w1 (ix2 k q))
        + brow (ix2 0 q) := by
  unfold k0_pay1
  rw [addf_apply, addf_apply, matmul_zero_apply, matmul_zero_apply, bias_row_apply]
  simp only [truncf_apply, shapeCast_self]

end Cert.KernelIdeal.Body

end
-- ==== Proof.HostHead.lean ====
/-
  What the kernel's region finds in the two arrays the host part of the program writes before it.

  The propagated features. Before the dense combine both programs run the same sparse part on the host: the degree of
  each node as a scatter-add of the edge weights by source node, its inverse square root where the degree is positive and
  zero elsewhere, the normalised edge weight `-dinv[row] · w · dinv[col]`, and the scatter-add by target node of the
  source rows of `x` scaled by it. The kernel's program and the reference spell these operations identically, one by
  one and literal by literal, so the array the region reads is the reference's own stage for the propagated features,
  evaluated at the kernel's arguments. Nothing else about it is needed: what a scatter or a gather does at an
  out-of-range node index is the same on both sides because it is the same function of the same arguments.

  The bias row. The host reshapes the bias `b : [64]` to one row `[1, 64]`; entry `(0, q)` of the row is `b[q]`.
-/
import proofs.«174732_j84954453114993_1_alg».proof.Proof.Gen.KernelIdeal.Frame
import proofs.«174732_j84954453114993_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.HostHead

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

set_option maxHeartbeats 4000000 in
/-- The array of propagated features, as the region finds it, is the reference's stage for them at the kernel's
    arguments `x`, `edge_index`, `edge_weight`. -/
theorem propagated_eq (c : Dev nD) :
    (V m c main_v43 : S100000x64.Idx → Elt F .f32)
      = Cert.ReferenceIdeal.Read.val_main_v43 (F := F) (m ((c : Thread nD τ).loc main_arg0))
          (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

/-- The bias row, as the region finds it, is the bias reshaped to one row. -/
theorem bias_row_eq (c : Dev nD) :
    (V m c main_v44 : S1x64.Idx → Elt F .f32)
      = shapeCast S1x64 (m ((c : Thread nD τ).loc main_arg5) : S64.Idx → Elt F .f32) shapeCasts_S64_S1x64 := by
  dsimp only [V]
  simp only [hostOps0, hostOps0_1, hostOps0_2, hostOps0_3, hostOps0_4, List.flatten_cons, List.flatten_nil, List.append_nil,
    List.cons_append, List.nil_append]
  after_results_simp
  rfl

/-- Entry `(0, q)` of the bias row is entry `q` of the bias. -/
theorem bias_row_apply (c : Dev nD) (q : Fin 64) :
    (V m c main_v44 : S1x64.Idx → Elt F .f32) (ix2 0 q) = (m ((c : Thread nD τ).loc main_arg5) : S64.Idx → Elt F .f32) (ix1 q) := by
  rw [bias_row_eq]
  exact shapeCast_apply _ shapeCasts_S64_S1x64 (ix2 0 q) (ix1 q)
    (by rw [Shape.rowMajor_val_two, Shape.rowMajor_val_one]; show q.val = 0 * 64 + q.val; omega)

end Cert.KernelIdeal.HostHead

end
-- ==== Proof.Whole.lean ====
/-
  From the twenty blocks to the whole output array.

  The grid has twenty points; point `t` stages rows `5000·t … 5000·t + 4999` of the node features and of the propagated
  features, the two weight matrices whole, the bias row whole, and writes back rows `5000·t … 5000·t + 4999` of the
  output. Entry `(p, q)` of what it writes is the body's value there, which reads row `p` of the two staged blocks —
  row `5000·t + p` of the arrays — against column `q` of the weights, plus entry `q` of the bias row. So point `t`
  writes block `t` of ONE function of the arrays, the dense combine `dense` below; the twenty blocks tile the
  100000 rows (row `r` lies in block `r / 5000`), so the array ends holding `dense` everywhere. Read at the
  program's arguments — the weights and features as launched, the propagated features as the host part computes them,
  the bias row as the bias reshaped — `dense` is the layer's combine of the arguments.
-/
import proofs.«174732_j84954453114993_1_alg».proof.Proof.Gen.KernelIdeal.Value
import proofs.«174732_j84954453114993_1_alg».proof.Proof.BodyCombine
import proofs.«174732_j84954453114993_1_alg».proof.Proof.HostHead
import proofs.«174732_j84954453114993_1_alg».proof.Proof.Spec

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)
open Idealize.ShloMosaic.ValueIdx Cert.Combine

variable (m : (ℓ : Loc nD τ sig) → Buf (Elt Ideal) ℓ) (ρ : Dev nD → PrngReg)

theorem zero_off : (![0, 0] : Fin 2 → Nat) = fun _ => 0 := funext fun a => by fin_cases a <;> rfl

/-! ## The arrays the region reads, at their literal types -/

/-- The node features, -/
abbrev xarr (c : Dev nD) : FVec Ideal S100000x64 .f32 := V m c main_arg0
/-- the propagated features (the array the second window stages: the host part's result), -/
abbrev tarr (c : Dev nD) : FVec Ideal S100000x64 .f32 := V m c (Pipeline.arrRef spec0 1)
/-- the two weight matrices, -/
abbrev w0arr (c : Dev nD) : FVec Ideal S64x64 .f32 := V m c main_arg3
abbrev w1arr (c : Dev nD) : FVec Ideal S64x64 .f32 := V m c main_arg4
/-- and the bias row, as the region finds them. -/
abbrev browarr (c : Dev nD) : FVec Ideal S1x64 .f32 := V m c main_v44

/-- The dense combine of those arrays: entry `(r, q)` is row `r` of the features against column `q` of the first weight
    matrix, plus row `r` of the propagated features against column `q` of the second, plus entry `q` of the bias row. -/
def dense (c : Dev nD) : FVec Ideal S100000x64 .f32 := fun i =>
  (∑ k : Fin 64, xarr m c (ix2 (i 0) k) * w0arr m c (ix2 k (i 1)) + ∑ k : Fin 64, tarr m c (ix2 (i 0) k) * w1arr m c (ix2 k (i 1)))
    + browarr m c (ix2 0 (i 1))

theorem dense_apply (c : Dev nD) (r : Fin 100000) (q : Fin 64) :
    dense m c (ix2 r q)
      = (∑ k : Fin 64, xarr m c (ix2 r k) * w0arr m c (ix2 k q) + ∑ k : Fin 64, tarr m c (ix2 r k) * w1arr m c (ix2 k q))
        + browarr m c (ix2 0 q) := rfl

/-! ## The index maps over the twenty points -/

/-- The two row-blocked inputs and the output move together, block `t` at point `t`; the weights and the bias row stay at
    block `(0, 0)`. Decided over the grid. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 20 :=
  (by decide +kernel : ∀ t : Fin grid0.N, _)

/-! ## Each staged block, read where it sits in its array -/

/-- Row `p` of the features' block at point `t` is row `5000·t + p` of the features. -/
theorem xblk_apply (c : Dev nD) (t : Fin cfg0.N) (p : Fin 5000) (k : Fin 64) (h : t.val * 5000 + p.val < 100000) :
    (iblk m c 0 t : Vec Ideal S5000x64 .f32) (ix2 p k) = xarr m c (ix2 ⟨t.val * 5000 + p.val, h⟩ k) := by
  obtain ⟨e0, e1, -⟩ := index_facts t
  show V m c main_arg0 (((cfg0.win 0).blk t).view.emb (ix2 p k : S5000x64.Idx)) = V m c main_arg0 (ix2 ⟨t.val * 5000 + p.val, h⟩ k : S100000x64.Idx)
  have hemb : ((cfg0.win 0).blk t).view.emb (ix2 p k : S5000x64.Idx) = (ix2 ⟨t.val * 5000 + p.val, h⟩ k : S100000x64.Idx) := by
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  rw [hemb]

/-- Row `p` of the second window's block at point `t`, read off ANY array `A` of the propagated features' shape, is row
    `5000·t + p` of `A`: the block's position does not depend on what the array holds. -/
theorem rows1_read (A : FVec Ideal S100000x64 .f32) (t : Fin cfg0.N) (p : Fin 5000) (k : Fin 64) (h : t.val * 5000 + p.val < 100000) :
    (((cfg0.win 1).blk t).view.read (Elt Ideal) A : Vec Ideal S5000x64 .f32) (ix2 p k) = A (ix2 ⟨t.val * 5000 + p.val, h⟩ k) := by
  obtain ⟨-, -, e0, e1, -⟩ := index_facts t
  show A (((cfg0.win 1).blk t).view.emb (ix2 p k : S5000x64.Idx)) = A (ix2 ⟨t.val * 5000 + p.val, h⟩ k : S100000x64.Idx)
  have hemb : ((cfg0.win 1).blk t).view.emb (ix2 p k : S5000x64.Idx) = (ix2 ⟨t.val * 5000 + p.val, h⟩ k : S100000x64.Idx) := by
    funext a; apply Fin.ext
    match a with
    | ⟨0, _⟩ => show win0_1.index t (0 : Fin 2) * 5000 + 1 * p.val = t.val * 5000 + p.val; omega
    | ⟨1, _⟩ => show win0_1.index t (1 : Fin 2) * 64 + 1 * k.val = k.val; omega
  rw [hemb]

/-- Row `p` of the propagated features' block at point `t` is row `5000·t + p` of the propagated features. -/
theorem tblk_apply (c : Dev nD) (t : Fin cfg0.N) (p : Fin 5000) (k : Fin 64) (h : t.val * 5000 + p.val < 100000) :
    (iblk m c 1 t : Vec Ideal S5000x64 .f32) (ix2 p k) = tarr m c (ix2 ⟨t.val * 5000 + p.val, h⟩ k) :=
  rows1_read (tarr m c) t p k h

/-- The first weight matrix is staged whole at every point. -/
theorem w0blk_eq (c : Dev nD) (t : Fin cfg0.N) : (iblk m c 2 t : Vec Ideal S64x64 .f32) = w0arr m c := by
  obtain ⟨-, -, -, -, e0, e1, -⟩ := index_facts t
  funext y
  show V m c main_arg3 (((cfg0.win 2).blk t).view.emb y) = V m c main_arg3 y
  have hemb : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  rw [hemb]

/-- So is the second. -/
theorem w1blk_eq (c : Dev nD) (t : Fin cfg0.N) : (iblk m c 3 t : Vec Ideal S64x64 .f32) = w1arr m c := by
  obtain ⟨-, -, -, -, -, -, e0, e1, -⟩ := index_facts t
  funext y
  show V m c main_arg4 (((cfg0.win 3).blk t).view.emb y) = V m c main_arg4 y
  have hemb : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  rw [hemb]

/-- And the bias row. -/
theorem browblk_eq (c : Dev nD) (t : Fin cfg0.N) : (iblk m c 4 t : Vec Ideal S1x64 .f32) = browarr m c := by
  obtain ⟨-, -, -, -, -, -, -, -, e0, e1, -⟩ := index_facts t
  funext y
  show V m c main_v44 (((cfg0.win 4).blk t).view.emb y) = V m c main_v44 y
  have hemb : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  rw [hemb]

/-! ## What a point writes back -/

/-- WHAT POINT `t` WRITES BACK is block `t` of the dense combine of the arrays as the region finds them. -/
theorem flushed_eq (c : Dev nD) (t : Fin cfg0.N) :
    (dats m 0 c).flushed 5 t = ((cfg0.win 5).blk t).view.read (Elt Ideal) (dense m c) := by
  rw [Cert.KernelIdeal.Value.flushed5]
  unfold out0_5
  rw [View.canon_unit_zero zero_off]
  simp only [View.ld_unit_zero (S := S5000x64) zero_off, View.ld_unit_zero (S := S64x64) zero_off, View.ld_unit_zero (S := S1x64) zero_off]
  obtain ⟨-, -, -, -, -, -, -, -, -, -, e0, e1, ht⟩ := index_facts t
  funext j
  obtain ⟨p, q, rfl⟩ : ∃ (p : Fin 5000) (q : Fin 64), j = ix2 p q := ⟨j 0, j 1, eq_ix2 j⟩
  have hr : t.val * 5000 + p.val < 100000 := by have := p.isLt; omega
  have hemb : ((cfg0.win 5).blk t).view.emb (ix2 p q : S5000x64.Idx) = (ix2 ⟨t.val * 5000 + p.val, hr⟩ q : S100000x64.Idx) := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) (iblk m c 0 t) (iblk m c 1 t) (iblk m c 2 t) (iblk m c 3 t) (iblk m c 4 t) (ix2 p q)
    = dense m c (((cfg0.win 5).blk t).view.emb (ix2 p q : S5000x64.Idx))
  refine (Cert.KernelIdeal.Body.stored_apply (iblk m c 0 t) (iblk m c 1 t) (iblk m c 2 t) (iblk m c 3 t) (iblk m c 4 t) p q).trans ?_
  rw [hemb, dense_apply]
  have hx : ∀ k : Fin 64, (iblk m c 0 t : Vec Ideal S5000x64 .f32) (ix2 p k) = xarr m c (ix2 ⟨t.val * 5000 + p.val, hr⟩ k) :=
    fun k => xblk_apply m c t p k hr
  have hT : ∀ k : Fin 64, (iblk m c 1 t : Vec Ideal S5000x64 .f32) (ix2 p k) = tarr m c (ix2 ⟨t.val * 5000 + p.val, hr⟩ k) :=
    fun k => tblk_apply m c t p k hr
  simp only [hx, hT, w0blk_eq m c t, w1blk_eq m c t, browblk_eq m c t]

/-! ## The blocks tile the array -/

/-- An entry of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v45).slice (win0_5.rect t)).set ↔ _
  rw [View.set_slice_whole, Rect.mem_set_unit]
  exact Iff.rfl

/-- Row `r` of the array lies in the block of point `r / 5000`, which writes back. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, -, -, -, -, -, e0, e1, -⟩ := index_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    have e0' : win0_5.index ⟨(i 0).val / 5000, hN⟩ (0 : Fin 2) = (i 0).val / 5000 := e0
    omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    omega

/-- THE ARRAY after the run is the dense combine of the arrays as the region finds them. -/
theorem final (c : Dev nD) : (dats m 0 c).arrAt 5 cfg0.N = dense m c :=
  (dats m 0 c).arrAt_eq_of_cover 5 (dense m c) (fun t _ => flushed_eq m c t) cover

/-! ## The arrays, read at the program's arguments -/

theorem xarr_eq (c : Dev nD) : xarr m c = (m ((c : Thread nD τ).loc main_arg0)) := V_main_arg0 m c
theorem w0arr_eq (c : Dev nD) : w0arr m c = (m ((c : Thread nD τ).loc main_arg3)) := V_main_arg3 m c
theorem w1arr_eq (c : Dev nD) : w1arr m c = (m ((c : Thread nD τ).loc main_arg4)) := V_main_arg4 m c
/-- The second window's array is the buffer the host part's last scatter-add writes: for ANY assignment `W` of contents
    to buffers, what `W` gives the one is what it gives the other (they are the same buffer). -/
theorem at_window1 (c : Dev nD) (W : (b : Ref sig .tc) → Buf (Elt Ideal) ((c : Thread nD τ).loc b)) (R : FVec Ideal S100000x64 .f32)
    (h : (W main_v43 : FVec Ideal S100000x64 .f32) = R) : (W (Pipeline.arrRef spec0 1) : FVec Ideal S100000x64 .f32) = R := h
theorem tarr_eq (c : Dev nD) : tarr m c = (Cert.ReferenceIdeal.Read.val_main_v43 (F := Ideal) (m ((c : Thread nD τ).loc main_arg0)) (m ((c : Thread nD τ).loc main_arg1)) (m ((c : Thread nD τ).loc main_arg2))) :=
  at_window1 c (V m c) _ (Cert.KernelIdeal.HostHead.propagated_eq m c)
theorem browarr_apply (c : Dev nD) (q : Fin 64) : browarr m c (ix2 0 q) = ((m ((c : Thread nD τ).loc main_arg5)) : S64.Idx → Elt Ideal .f32) (ix1 q) :=
  Cert.KernelIdeal.HostHead.bias_row_apply m c q

/-- The dense combine of the arrays as the region finds them is the layer's combine of the program's arguments, the
    propagated features being the sparse part's one function of `x`, `edge_index` and `edge_weight`. -/
theorem dense_eq (c : Dev nD) : dense m c = combine (m ((c : Thread nD τ).loc main_arg0)) (Cert.ReferenceIdeal.Read.val_main_v43 (F := Ideal) (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) := by
  funext i
  obtain ⟨r, q, rfl⟩ : ∃ (r : Fin 100000) (q : Fin 64), i = ix2 r q := ⟨i 0, i 1, eq_ix2 i⟩
  rw [dense_apply, combine_apply, xarr_eq, w0arr_eq, w1arr_eq, tarr_eq, browarr_apply]

/-! ## The run, read -/

/-- The kernel's run re-posted: its result array at the layer's combine of the arguments, the arguments unchanged. -/
theorem run : θ_run defs (onTc (τ := τ) (main (F := Ideal))) ⟨m, fun _ => 0, ρ⟩ fun r => ∀ c : Dev nD,
      r.2.mem ((c : Thread nD τ).loc main_v45) = combine (m ((c : Thread nD τ).loc main_arg0)) (Cert.ReferenceIdeal.Read.val_main_v43 (F := Ideal) (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (dense_eq m c)), (h c).2⟩)
    (Cert.KernelIdeal.Value.run_blocks m ρ)

end Cert.KernelIdeal.Whole

end
-- ==== Proof.lean ====
/-
  One Chebyshev graph-convolution layer of order two, with symmetric normalisation, on 100000 nodes of 64 features and
  1600000 weighted edges:

      out = x · W0 + T · W1 + b,      T[i] = Σ over edges e with col e = i of  norm e · x[row e],
      norm e = -dinv[row e] · w e · dinv[col e],   dinv = deg^(-1/2) where deg > 0 and 0 elsewhere,   deg[i] = Σ over edges with row e = i of w e.

  Both programs compute the sparse part `T` on the host by the same operations, spelt identically (two scatter-adds,
  three gathers, an inverse square root under a positivity test), so `T` is ONE function of `x`, the edge list and the
  edge weights on both sides, and nothing else about it is used. They differ in the dense part only. The kernel tiles the 100000 rows
  into twenty blocks of 5000 and, per block, narrows the four matrices to bf16 (the identity on extended reals),
  multiplies on the matrix unit into a zero accumulator, adds the two products and then the bias row. The reference
  multiplies the whole arrays on the host, adds the two products and then the bias broadcast over the rows. At the
  extended reals a product with one contracted axis is the plain sum over that axis on either unit, and both sides add
  in the same grouping, `(x·W0 + T·W1) + b`, so the two results are the same function entry by entry and no law beyond
  the definitions is used; in particular the inputs' finiteness is never needed.

  The modules: `Spec` states the dense combine; `RefCombine` reads the reference's last five operations as it;
  `BodyCombine` reads the kernel body at an entry of its block; `HostHead` identifies the propagated features the region
  finds with the reference's and reads the reshaped bias row; `Whole` goes from the twenty blocks to the whole array.
-/
import proofs.«174732_j84954453114993_1_alg».proof.Defs
import proofs.«174732_j84954453114993_1_alg».proof.Proof.Gen.Kernel
import proofs.«174732_j84954453114993_1_alg».proof.Proof.Gen.Kernel.Frame
import proofs.«174732_j84954453114993_1_alg».proof.Proof.Gen.KernelIdeal
import proofs.«174732_j84954453114993_1_alg».proof.Proof.Gen.KernelIdeal.Frame
import proofs.«174732_j84954453114993_1_alg».proof.Proof.Gen.KernelIdeal.Value
import proofs.«174732_j84954453114993_1_alg».proof.Proof.Gen.ReferenceIdeal
import proofs.«174732_j84954453114993_1_alg».proof.Proof.Gen.ReferenceIdeal.Run
import proofs.«174732_j84954453114993_1_alg».proof.Proof.Gen.ReferenceIdeal.Read
import proofs.«174732_j84954453114993_1_alg».proof.Proof.Gen.Pre_finite_inputs
import proofs.«174732_j84954453114993_1_alg».proof.Proof.Spec
import proofs.«174732_j84954453114993_1_alg».proof.Proof.RefCombine
import proofs.«174732_j84954453114993_1_alg».proof.Proof.Whole
import Idealize.ShloMosaic.Adequacy
import Idealize.ShloMosaic.Init

noncomputable section

namespace Cert.Proof

open Idealize.ShloMosaic Idealize.ShloMosaic.TcCoe Idealize.SL.Sem Cert.Combine

/-- The kernel as printed runs to completion without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read at the extended reals. -/
theorem preserves : Cert.preserves_Kernel_KernelIdeal := trivial

/-- From arguments that agree, both idealized programs end with the layer's combine of the arguments in their result:
    the kernel's twenty blocks tile it (`Whole.run`), the reference's last stage is it (`RefValue.result_eq`), and the
    propagated features are the same function of the same arguments on both sides. -/
theorem algebraic : Cert.algebraic_KernelIdeal_ReferenceIdeal := by
  intro m ρ m' ρ' _ hagree
  refine ⟨fun c => combine (m ((c.tc : Thread Cert.KernelIdeal.nD Cert.KernelIdeal.τ).loc Cert.KernelIdeal.main_arg0)) (Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
